-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x1024_S1024 : S1024x1024.Reduces [1] S1024
  shapeCasts_S1024_S1024x1 : S1024.ShapeCasts S1024x1
  broadcasts_S1024x1_S1024x1024 : S1024x1.Broadcasts S1024x1024
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.AttentionRow.lean ====
import proofs.«162672_g57990648430879_cont_sun_c4_352_2_alg».proof.Proof.LibIdealReal
import Mathlib.Data.Finset.Fold
import Mathlib.Analysis.SpecialFunctions.Exp

/-!
# One row of memory attention, on the extended reals

A row of scores `a` is turned into attention weights in three steps: a softmax, a soft shrinkage by a
threshold `λ` (`p ↦ max (p − λ) 0`), and a second softmax. Two spellings of this map are compared.

* The *reciprocal* spelling subtracts the row maximum before the first exponential, multiplies by the
  reciprocal of the sum, shrinks by `max (p − λ) 0`, and takes the second softmax of the shrunk row as it
  is (`attnRow`).
* The *quotient* spelling subtracts some real `m` before the first exponential, divides by the sum,
  shrinks by `sign p · max (|p| − λ) 0`, subtracts some real `m'` before the second exponential and divides
  by the sum (`attnRowQ`).

On a row of REAL scores both are the same real numbers: a softmax does not depend on the real subtracted
before the exponential (`exp (a − m) / ∑ exp (a − m) = exp a / ∑ exp a`), division by a positive real is
multiplication by its reciprocal, and a softmax value is positive, so its sign is `1` and its absolute value
itself. None of this holds at the infinities, which is why the rows are required real.
-/

open Idealize.ShloMosaic Cert.Lib

namespace Cert.Attn

/-! ### The literal words -/

/-- The `f32` pattern `0xFF800000` denotes `-∞`. -/
theorem negInf_eq_bot : Ideal.ofBits .f32 0xFF800000#32 = ⊥ := by simp [Ideal.ofBits, Ideal.ieee]

/-- The shrinkage threshold, the `f32` nearest `0.0025`, is real. -/
theorem thresh_isReal : IsReal (Ideal.ofBits .f32 0x3B23D70A#32) := by
  unfold IsReal; simp [Ideal.ofBits, Ideal.ieee, -EReal.coe_mul]

/-- The threshold as a real number. -/
noncomputable def thr : ℝ := (Ideal.ofBits .f32 0x3B23D70A#32).toReal

theorem thr_spec : Ideal.ofBits .f32 0x3B23D70A#32 = ((thr : ℝ) : EReal) := (IsReal.coe_toReal thresh_isReal).symm

/-- An extended real that is neither infinity is real. -/
theorem isReal_of_ne {x : EReal} (h1 : x ≠ ⊥) (h2 : x ≠ ⊤) : IsReal x := by
  induction x using EReal.rec with
  | bot => exact absurd rfl h1
  | top => exact absurd rfl h2
  | coe r => exact ⟨r, rfl⟩

variable {ι : Type} [Fintype ι]

/-! ### The maximum of a nonempty real row is real -/

/-- The running maximum over a nonempty row of real values, from any start below `+∞`, is real: it is at least
    one entry of the row, and below `+∞` because the start and every entry are. -/
theorem fold_max_isReal [Nonempty ι] (b : EReal) (hb : b ≠ ⊤) (f : ι → EReal) (hf : ∀ k, IsReal (f k)) :
    IsReal (Finset.univ.fold max b f) := by
  refine isReal_of_ne ?_ ?_
  · obtain ⟨k0⟩ := ‹Nonempty ι›
    have h : f k0 ≤ Finset.univ.fold max b f :=
      (Finset.le_fold_max _).mpr (Or.inr ⟨k0, Finset.mem_univ _, le_rfl⟩)
    intro e
    rw [e] at h
    exact (hf k0).ne_bot (le_bot_iff.mp h)
  · have h : Finset.univ.fold max b f < ⊤ :=
      (Finset.fold_max_lt _).mpr ⟨lt_top_iff_ne_top.mpr hb, fun k _ => lt_top_iff_ne_top.mpr (hf k).ne_top⟩
    exact h.ne

/-- The row maximum as a reduction from `-∞` takes it. -/
noncomputable def rowMax (a : ι → EReal) : EReal := Finset.univ.fold max (Ideal.ofBits .f32 0xFF800000#32) a

theorem rowMax_isReal [Nonempty ι] (a : ι → EReal) (ha : ∀ k, IsReal (a k)) : IsReal (rowMax a) :=
  fold_max_isReal _ (by rw [negInf_eq_bot]; exact bot_ne_top) a ha

/-- The same maximum joined once more with `-∞` is still real. -/
theorem max_negInf_rowMax_isReal [Nonempty ι] (a : ι → EReal) (ha : ∀ k, IsReal (a k)) :
    IsReal (max (Ideal.ofBits .f32 0xFF800000#32) (rowMax a)) := by
  rw [negInf_eq_bot, max_bot_left]; exact rowMax_isReal a ha

/-! ### The two normalisations and the two shrinkages -/

/-- Normalise a row by multiplying with the reciprocal of its sum. -/
noncomputable def normalise (e : ι → EReal) (j : ι) : EReal :=
  e j * Ideal.div (Ideal.ofBits .f32 0x3F800000#32) (∑ k, e k)

/-- Normalise a row by dividing by its sum, taken from zero. -/
noncomputable def quotient (e : ι → EReal) (j : ι) : EReal :=
  Ideal.div (e j) (Ideal.ofBits .f32 0x00000000#32 + ∑ k, e k)

/-- Soft shrinkage of a nonnegative value. -/
noncomputable def shrink (p : EReal) : EReal :=
  max (p - Ideal.ofBits .f32 0x3B23D70A#32) (Ideal.ofBits .f32 0x00000000#32)

/-- Soft shrinkage in its signed form, `sign p · max (|p| − λ) 0`. -/
noncomputable def shrinkSigned (p : EReal) : EReal :=
  Ideal.sign p * max (max p (-p) - Ideal.ofBits .f32 0x3B23D70A#32) (Ideal.ofBits .f32 0x00000000#32)

/-- The attention weights of a row of scores, reciprocal spelling. -/
noncomputable def attnRow (a : ι → EReal) : ι → EReal :=
  normalise fun j => Ideal.exp (shrink (normalise (fun k => Ideal.exp (a k - rowMax a)) j))

/-- The shrunk first softmax of a row, quotient spelling, `m` subtracted before the exponential. -/
noncomputable def shrunkQ (a : ι → EReal) (m : EReal) (j : ι) : EReal :=
  shrinkSigned (quotient (fun k => Ideal.exp (a k - m)) j)

/-- The attention weights of a row of scores, quotient spelling. -/
noncomputable def attnRowQ (a : ι → EReal) (m m' : EReal) : ι → EReal :=
  quotient fun j => Ideal.exp (shrunkQ a m j - m')

/-! ### In the reals -/

/-- The softmax of a real row. -/
noncomputable def softmaxR (α : ι → ℝ) (j : ι) : ℝ := Real.exp (α j) / ∑ k, Real.exp (α k)

theorem sum_exp_pos [Nonempty ι] (α : ι → ℝ) : 0 < ∑ k, Real.exp (α k) :=
  Finset.sum_pos (fun k _ => Real.exp_pos _) Finset.univ_nonempty

theorem softmaxR_pos [Nonempty ι] (α : ι → ℝ) (j : ι) : 0 < softmaxR α j :=
  div_pos (Real.exp_pos _) (sum_exp_pos α)

/-- A softmax does not see a real subtracted from every score. -/
theorem softmaxR_shift [Nonempty ι] (α : ι → ℝ) (m : ℝ) (j : ι) :
    softmaxR (fun k => α k - m) j = softmaxR α j := by
  have hm : Real.exp m ≠ 0 := (Real.exp_pos m).ne'
  have hS : (∑ k, Real.exp (α k)) ≠ 0 := (sum_exp_pos α).ne'
  unfold softmaxR
  simp only [Real.exp_sub]
  rw [← Finset.sum_div]
  field_simp

/-- A row of positive reals normalised by the reciprocal of its sum. -/
theorem normalise_coe [Nonempty ι] (e : ι → ℝ) (he : ∀ k, 0 < e k) (j : ι) :
    normalise (fun k => ((e k : ℝ) : EReal)) j = ((e j / ∑ k, e k : ℝ) : EReal) := by
  have hS : (∑ k, e k) ≠ 0 := (Finset.sum_pos (fun k _ => he k) Finset.univ_nonempty).ne'
  unfold normalise
  rw [coe_sum, Ideal.div_coe hS, ofBits_f32_one, one_mul, ← EReal.coe_mul]
  exact congrArg _ (div_eq_mul_one_div _ _).symm

/-- A row of positive reals divided by its sum: the same numbers. -/
theorem quotient_coe [Nonempty ι] (e : ι → ℝ) (he : ∀ k, 0 < e k) (j : ι) :
    quotient (fun k => ((e k : ℝ) : EReal)) j = ((e j / ∑ k, e k : ℝ) : EReal) := by
  have hS : (∑ k, e k) ≠ 0 := (Finset.sum_pos (fun k _ => he k) Finset.univ_nonempty).ne'
  unfold quotient
  rw [Ideal.ofBits_zero_f32, zero_add, coe_sum, Ideal.div_coe hS, ← EReal.coe_mul]
  exact congrArg _ (div_eq_mul_one_div _ _).symm

/-- The exponential of a difference of reals. -/
theorem exp_sub_coe (x m : ℝ) : Ideal.exp ((x : EReal) - (m : EReal)) = ((Real.exp (x - m) : ℝ) : EReal) := by
  rw [← EReal.coe_sub, Ideal.exp_coe]

/-- First softmax, reciprocal spelling, of a real row shifted by a real: the real softmax. -/
theorem normalise_exp_sub [Nonempty ι] (α : ι → ℝ) (m : ℝ) (j : ι) :
    normalise (fun k => Ideal.exp (((α k : ℝ) : EReal) - (m : EReal))) j = ((softmaxR α j : ℝ) : EReal) := by
  simp only [exp_sub_coe]
  rw [normalise_coe (fun k => Real.exp (α k - m)) (fun k => Real.exp_pos _) j]
  exact congrArg _ (softmaxR_shift α m j)

/-- First softmax, quotient spelling, of a real row shifted by a real: the real softmax. -/
theorem quotient_exp_sub [Nonempty ι] (α : ι → ℝ) (m : ℝ) (j : ι) :
    quotient (fun k => Ideal.exp (((α k : ℝ) : EReal) - (m : EReal))) j = ((softmaxR α j : ℝ) : EReal) := by
  simp only [exp_sub_coe]
  rw [quotient_coe (fun k => Real.exp (α k - m)) (fun k => Real.exp_pos _) j]
  exact congrArg _ (softmaxR_shift α m j)

/-- Softmax, reciprocal spelling, of a real row as it is: the real softmax. -/
theorem normalise_exp [Nonempty ι] (σ : ι → ℝ) (j : ι) :
    normalise (fun k => Ideal.exp ((σ k : ℝ) : EReal)) j = ((softmaxR σ j : ℝ) : EReal) := by
  simp only [Ideal.exp_coe]
  exact normalise_coe (fun k => Real.exp (σ k)) (fun k => Real.exp_pos _) j

/-- Shrinkage of a real value is the real `max (p − λ) 0`. -/
theorem shrink_coe (p : ℝ) : shrink (p : EReal) = ((max (p - thr) 0 : ℝ) : EReal) := by
  unfold shrink
  rw [thr_spec, Ideal.ofBits_zero_f32, ← EReal.coe_sub, ← EReal.coe_zero, ← coe_max]

/-- Signed shrinkage of a POSITIVE real value is the same number: its sign is `1`, its absolute value itself. -/
theorem shrinkSigned_coe {p : ℝ} (hp : 0 < p) : shrinkSigned (p : EReal) = ((max (p - thr) 0 : ℝ) : EReal) := by
  unfold shrinkSigned
  have hp' : (0 : EReal) < (p : EReal) := EReal.coe_pos.mpr hp
  have habs : max (p : EReal) (-(p : EReal)) = (p : EReal) :=
    max_eq_left ((EReal.neg_le_zero.mpr hp'.le).trans hp'.le)
  rw [Ideal.sign_of_pos hp', habs, one_mul, thr_spec, Ideal.ofBits_zero_f32, ← EReal.coe_sub, ← EReal.coe_zero, ← coe_max]

/-! ### The two spellings agree on real rows -/

/-- The shrunk first softmax, quotient spelling, of a real row: real. -/
theorem shrunkQ_coe [Nonempty ι] (α : ι → ℝ) (m : ℝ) (j : ι) :
    shrunkQ (fun k => ((α k : ℝ) : EReal)) (m : EReal) j = ((max (softmaxR α j - thr) 0 : ℝ) : EReal) := by
  unfold shrunkQ
  rw [quotient_exp_sub α m j, shrinkSigned_coe (softmaxR_pos α j)]

theorem shrunkQ_isReal [Nonempty ι] (a : ι → EReal) (ha : ∀ k, IsReal (a k)) (m : EReal) (hm : IsReal m) (j : ι) :
    IsReal (shrunkQ a m j) := by
  choose α hα using ha
  obtain ⟨μ, rfl⟩ := hm
  obtain rfl : a = fun k => ((α k : ℝ) : EReal) := funext hα
  rw [shrunkQ_coe]; exact IsReal.coe _

/-- The reciprocal spelling on a real row, in the reals. -/
theorem attnRow_coe [Nonempty ι] (α : ι → ℝ) (j : ι) :
    attnRow (fun k => ((α k : ℝ) : EReal)) j = ((softmaxR (fun k => max (softmaxR α k - thr) 0) j : ℝ) : EReal) := by
  obtain ⟨μ, hμ⟩ := rowMax_isReal (fun k => ((α k : ℝ) : EReal)) (fun k => IsReal.coe _)
  unfold attnRow
  rw [hμ]
  simp only [normalise_exp_sub α μ, shrink_coe]
  exact normalise_exp (fun k => max (softmaxR α k - thr) 0) j

/-- The quotient spelling on a real row, whatever reals are subtracted, in the reals. -/
theorem attnRowQ_coe [Nonempty ι] (α : ι → ℝ) (m m' : ℝ) (j : ι) :
    attnRowQ (fun k => ((α k : ℝ) : EReal)) (m : EReal) (m' : EReal) j
      = ((softmaxR (fun k => max (softmaxR α k - thr) 0) j : ℝ) : EReal) := by
  unfold attnRowQ
  simp only [shrunkQ_coe α m]
  exact quotient_exp_sub (fun k => max (softmaxR α k - thr) 0) m' j

/-- ON A ROW OF REAL SCORES the quotient spelling, with any reals subtracted before its two exponentials, is the
    reciprocal spelling. -/
theorem attnRowQ_eq_attnRow [Nonempty ι] (a : ι → EReal) (ha : ∀ k, IsReal (a k)) (m m' : EReal)
    (hm : IsReal m) (hm' : IsReal m') (j : ι) : attnRowQ a m m' j = attnRow a j := by
  choose α hα using ha
  obtain ⟨μ, rfl⟩ := hm
  obtain ⟨μ', rfl⟩ := hm'
  obtain rfl : a = fun k => ((α k : ℝ) : EReal) := funext hα
  rw [attnRowQ_coe, attnRow_coe]

/-- The reciprocal spelling's weights on a real row are real. -/
theorem attnRow_isReal [Nonempty ι] (a : ι → EReal) (ha : ∀ k, IsReal (a k)) (j : ι) : IsReal (attnRow a j) := by
  choose α hα using ha
  obtain rfl : a = fun k => ((α k : ℝ) : EReal) := funext hα
  rw [attnRow_coe]; exact IsReal.coe _

end Cert.Attn
-- ==== Proof.MemorySpec.lean ====
import proofs.«162672_g57990648430879_cont_sun_c4_352_2_alg».proof.Proof.AttentionRow
import Idealize.ShloMosaic.Lib.ValueIdx

/-!
# Reading a memory bank by attention

A token `x` (256 features) is scored against each of the 1024 rows of a memory bank `B` by the inner
product; the scores are turned into attention weights (`Cert.Attn.attnRow`: softmax, soft shrinkage, softmax);
the result is `tanh` of the weighted sum of the bank's rows. `memoryRead X B` does this for each of the 16384 rows
of `X`: entry `(r, q)` is `tanh (∑ j, w_r j · B j q)` with `w_r` the weights of row `r`'s scores.
-/

open Idealize.ShloMosaic Idealize.ShloMosaic.ValueIdx Cert.Lib

namespace Cert.Attn

/-- The scores of one token against the bank's rows: `j ↦ ∑ k, x k · B j k`. -/
noncomputable def scoreRow (x : Fin 256 → EReal) (B : (⟨2, ![1024, 256]⟩ : Shape).Idx → EReal) (j : Fin 1024) : EReal :=
  ∑ k : Fin 256, x k * B (ix2 j k)

/-- One token's read-out at feature `q`: `tanh` of the bank's column `q` weighted by the token's attention. -/
noncomputable def readRow (x : Fin 256 → EReal) (B : (⟨2, ![1024, 256]⟩ : Shape).Idx → EReal) (q : Fin 256) : EReal :=
  Ideal.tanh (∑ j : Fin 1024, attnRow (scoreRow x B) j * B (ix2 j q))

/-- The read-out of every token: entry `(r, q)` is token `r`'s read-out at feature `q`. -/
noncomputable def memoryRead (X : (⟨2, ![16384, 256]⟩ : Shape).Idx → EReal) (B : (⟨2, ![1024, 256]⟩ : Shape).Idx → EReal) :
    (⟨2, ![16384, 256]⟩ : Shape).Idx → EReal :=
  fun i => readRow (fun k => X (ix2 (i 0) k)) B (i 1)

/-- The scores of a real token against a real bank are real. -/
theorem scoreRow_isReal (x : Fin 256 → EReal) (B : (⟨2, ![1024, 256]⟩ : Shape).Idx → EReal)
    (hx : ∀ k, IsReal (x k)) (hB : ∀ i, IsReal (B i)) (j : Fin 1024) : IsReal (scoreRow x B j) :=
  IsReal.sum _ _ fun k _ => (hx k).mul (hB _)

end Cert.Attn
-- ==== Proof.KernelRow.lean ====
import proofs.«162672_g57990648430879_cont_sun_c4_352_2_alg».proof.Proof.Gen.KernelIdeal.Skeleton
import proofs.«162672_g57990648430879_cont_sun_c4_352_2_alg».proof.Proof.MemorySpec
import Idealize.ShloMosaic.Lib.ValueIdx
import Idealize.ShloMosaic.Lib.Pipeline.Value
import Idealize.ShloMosaic.PureOps.Ideal.Laws

/-!
# What the kernel body stores, entry by entry

The body loads a block `x` of 1024 tokens and the whole bank `b`, and stores one 1024 × 256 block. Read at the
extended reals, entry `(p, q)` of what it stores is token `p`'s read-out at feature `q`
(`Cert.Attn.readRow`): the first matrix product's row `p` is the token's scores; the row maximum, the
exponentials, the row sum's reciprocal, the shrinkage and the second normalisation are `Cert.Attn.attnRow` of that
row, each broadcast column read back at its row; the second matrix product is the weighted sum of the bank's column.
The body's term is cut into stages, each read at an index on its own.
-/

noncomputable section

namespace Cert.KernelIdeal.Row

open Cert.KernelIdeal Cert.KernelIdeal.Gen Idealize.ShloMosaic Idealize.ShloMosaic.ValueIdx Cert.Attn

/-! ### The stages of the body's term -/

/-- The block's scores: the product of the tokens with the bank, both contracted over the features. -/
def scores (x b : FVec Ideal S1024x256 .f32) : FVec Ideal S1024x1024 .f32 :=
  matmul (φ₁ := .f32) (φ₂ := .f32) dot_S1024x256_S1024x256_S1024x1024_1_1_0_0_n_n none x b (constant S1024x1024 .f32 0x00000000#32)

/-- Each row's maximum, spread back over the row. -/
def rowMaxCol (A : FVec Ideal S1024x1024 .f32) : FVec Ideal S1024x1024 .f32 :=
  broadcastTo S1024x1024 (shapeCast S1024x1 (multiReduction .maximumf [1] S1024 A 0xFF800000#32 Facts₀.reduces_S1024x1024_S1024 (.inl rfl) rfl) Facts₀.shapeCasts_S1024_S1024x1) Facts₀.broadcasts_S1024x1_S1024x1024

/-- The reciprocal of each row's sum, spread back over the row. -/
def recipSumCol (E : FVec Ideal S1024x1024 .f32) : FVec Ideal S1024x1024 .f32 :=
  broadcastTo S1024x1024 (divf (broadcast S1024x1 (Scalar.ofBits .f32 0x3F800000#32)) (shapeCast S1024x1 (multiReduction .add [1] S1024 E 0x00000000#32 Facts₀.reduces_S1024x1024_S1024 (.inl rfl) rfl) Facts₀.shapeCasts_S1024_S1024x1)) Facts₀.broadcasts_S1024x1_S1024x1024

/-- The first softmax of every row. -/
def firstSoftmax (A : FVec Ideal S1024x1024 .f32) : FVec Ideal S1024x1024 .f32 :=
  mulf (exp (subf A (rowMaxCol A))) (recipSumCol (exp (subf A (rowMaxCol A))))

/-- The shrinkage of every entry. -/
def shrunk (P : FVec Ideal S1024x1024 .f32) : FVec Ideal S1024x1024 .f32 :=
  maximumf (subf P (broadcast S1024x1024 (Scalar.ofBits .f32 0x3B23D70A#32))) (broadcast S1024x1024 (Scalar.ofBits .f32 0x00000000#32))

/-- The attention weights of every row. -/
def weights (A : FVec Ideal S1024x1024 .f32) : FVec Ideal S1024x1024 .f32 :=
  mulf (exp (shrunk (firstSoftmax A))) (recipSumCol (exp (shrunk (firstSoftmax A))))

/-- The body's stored value is `tanh` of the weights' product with the bank. -/
theorem pay_eq (x b : FVec Ideal S1024x256 .f32) :
    k0_pay1 (F := Ideal) x b
      = tanh (matmul (φ₁ := .f32) (φ₂ := .f32) dot_S1024x1024_S1024x256_S1024x256_1_0_0_1_n_n none (weights (scores x b)) b (constant S1024x256 .f32 0x00000000#32)) := rfl

/-! ### The two broadcast columns read at a row -/

theorem col_of_row (p j : Fin 1024) : ∀ a : Fin S1024x1.rank,
    ((ix2 p (0 : Fin 1) : S1024x1.Idx) a).val
      = if S1024x1.size a = 1 then 0 else ((ix2 p j : S1024x1024.Idx) ⟨a.val + (S1024x1024.rank - S1024x1.rank), by have := a.isLt; omega⟩).val :=
  fun a => match a with
    | ⟨0, _⟩ => by show p.val = if (1024 : Nat) = 1 then 0 else p.val; rw [if_neg (by decide)]
    | ⟨1, _⟩ => by show 0 = if (1 : Nat) = 1 then 0 else j.val; rw [if_pos rfl]

theorem row_of_col (p : Fin 1024) :
    (S1024.rowMajor (ix1 p)).val = (S1024x1.rowMajor (ix2 p (0 : Fin 1))).val := by
  rw [Shape.rowMajor_val_one, Shape.rowMajor_val_two]
  show p.val = p.val * 1 + 0
  omega

/-- The row maximum spread over the row, read at `(p, j)`, is row `p`'s maximum. -/
theorem rowMaxCol_apply (A : FVec Ideal S1024x1024 .f32) (p j : Fin 1024) :
    rowMaxCol A (ix2 p j) = rowMax fun k : Fin 1024 => A (ix2 p k) := by
  unfold rowMaxCol
  rw [broadcastTo_apply _ Facts₀.broadcasts_S1024x1_S1024x1024 (ix2 p j) (ix2 p (0 : Fin 1)) (col_of_row p j),
    shapeCast_apply _ Facts₀.shapeCasts_S1024_S1024x1 (ix2 p (0 : Fin 1)) (ix1 p) (row_of_col p)]
  refine (Ideal.multiReduction_maximumf_single A 0xFF800000#32 Facts₀.reduces_S1024x1024_S1024 (.inl rfl) rfl (ix1 p)).trans ?_
  unfold rowMax
  refine congrArg (fun f => (Finset.univ : Finset (Fin 1024)).fold max (Ideal.ofBits .f32 0xFF800000#32) f)
    (funext fun k => congrArg A (funext fun a => Fin.ext ?_))
  match a with
  | ⟨0, _⟩ => rfl
  | ⟨1, _⟩ => rfl

/-- The reciprocal of the row sum spread over the row, read at `(p, j)`, is `1 / ∑ k, E p k`. -/
theorem recipSumCol_apply (E : FVec Ideal S1024x1024 .f32) (p j : Fin 1024) :
    recipSumCol E (ix2 p j) = Ideal.div (Ideal.ofBits .f32 0x3F800000#32) (∑ k : Fin 1024, E (ix2 p k)) := by
  unfold recipSumCol
  rw [broadcastTo_apply _ Facts₀.broadcasts_S1024x1_S1024x1024 (ix2 p j) (ix2 p (0 : Fin 1)) (col_of_row p j)]
  show Ideal.div (Ideal.ofBits .f32 0x3F800000#32) (shapeCast S1024x1 _ Facts₀.shapeCasts_S1024_S1024x1 (ix2 p (0 : Fin 1))) = _
  rw [shapeCast_apply _ Facts₀.shapeCasts_S1024_S1024x1 (ix2 p (0 : Fin 1)) (ix1 p) (row_of_col p)]
  refine congrArg (Ideal.div _) ((Ideal.multiReduction_add_single E 0x00000000#32 Facts₀.reduces_S1024x1024_S1024 (.inl rfl) rfl (ix1 p)).trans
    (Finset.sum_congr rfl fun k _ => congrArg E (funext fun a => Fin.ext ?_)))
  match a with
  | ⟨0, _⟩ => rfl
  | ⟨1, _⟩ => rfl

/-! ### The softmaxes read at a row -/

/-- The first softmax read at `(p, j)`: row `p`, less its maximum, exponentiated and normalised. -/
theorem firstSoftmax_apply (A : FVec Ideal S1024x1024 .f32) (p j : Fin 1024) :
    firstSoftmax A (ix2 p j)
      = normalise (fun k : Fin 1024 => Ideal.exp (A (ix2 p k) - rowMax fun k' : Fin 1024 => A (ix2 p k'))) j := by
  have hE : ∀ k : Fin 1024, (exp (subf A (rowMaxCol A)) : FVec Ideal S1024x1024 .f32) (ix2 p k)
      = Ideal.exp (A (ix2 p k) - rowMax fun k' : Fin 1024 => A (ix2 p k')) := fun k => by
    show Ideal.exp (A (ix2 p k) - rowMaxCol A (ix2 p k)) = _
    rw [rowMaxCol_apply]
  unfold firstSoftmax normalise
  show (exp (subf A (rowMaxCol A)) : FVec Ideal S1024x1024 .f32) (ix2 p j) * recipSumCol (exp (subf A (rowMaxCol A))) (ix2 p j) = _
  rw [recipSumCol_apply, hE j]
  simp only [hE]

/-- The attention weights read at `(p, j)` are `attnRow` of row `p`. -/
theorem weights_apply (A : FVec Ideal S1024x1024 .f32) (p j : Fin 1024) :
    weights A (ix2 p j) = attnRow (fun k : Fin 1024 => A (ix2 p k)) j := by
  have hE : ∀ k : Fin 1024, (exp (shrunk (firstSoftmax A)) : FVec Ideal S1024x1024 .f32) (ix2 p k)
      = Ideal.exp (shrink (normalise (fun k' : Fin 1024 => Ideal.exp (A (ix2 p k') - rowMax fun k'' : Fin 1024 => A (ix2 p k''))) k)) := fun k => by
    show Ideal.exp (max (firstSoftmax A (ix2 p k) - Ideal.ofBits .f32 0x3B23D70A#32) (Ideal.ofBits .f32 0x00000000#32)) = _
    rw [firstSoftmax_apply]
    rfl
  unfold weights attnRow normalise
  show (exp (shrunk (firstSoftmax A)) : FVec Ideal S1024x1024 .f32) (ix2 p j) * recipSumCol (exp (shrunk (firstSoftmax A))) (ix2 p j) = _
  rw [recipSumCol_apply, hE j]
  simp only [hE]
  rfl

/-! ### The two matrix products read at an entry -/

theorem lhs_scores_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_scores_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_scores_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_scores_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The block's scores at `(p, j)`: token `p` against bank row `j`. -/
theorem scores_apply (x b : FVec Ideal S1024x256 .f32) (p j : Fin 1024) :
    scores x b (ix2 p j) = scoreRow (fun k => x (ix2 p k)) b j := by
  unfold scores scoreRow
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p j) ((contrEquiv1 dot_S1024x256_S1024x256_S1024x1024_1_1_0_0_n_n 256 rfl rfl).symm k) = ix2 p k := funext fun a => Fin.ext (by
    match a with
    | ⟨0, _⟩ => exact lhs_scores_0 _ _
    | ⟨1, _⟩ => exact (lhs_scores_1 _ _).trans hk)
  have er : dot_S1024x256_S1024x256_S1024x1024_1_1_0_0_n_n.rhsIdx (ix2 p j) ((contrEquiv1 dot_S1024x256_S1024x256_S1024x1024_1_1_0_0_n_n 256 rfl rfl).symm k) = ix2 j k := funext fun a => Fin.ext (by
    match a with
    | ⟨0, _⟩ => exact rhs_scores_0 _ _
    | ⟨1, _⟩ => exact (rhs_scores_1 _ _).trans hk)
  rw [el, er]

theorem lhs_out_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_out_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_out_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_out_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- WHAT THE BODY STORES at `(p, q)`: token `p`'s read-out of the bank at feature `q`. -/
theorem pay_apply (x b : FVec Ideal S1024x256 .f32) (p : Fin 1024) (q : Fin 256) :
    k0_pay1 (F := Ideal) x b (ix2 p q) = readRow (fun k => x (ix2 p k)) b q := by
  rw [pay_eq]
  show Ideal.tanh (matmul (φ₁ := .f32) (φ₂ := .f32) dot_S1024x1024_S1024x256_S1024x256_1_0_0_1_n_n none (weights (scores x b)) b (constant S1024x256 .f32 0x00000000#32) (ix2 p q)) = _
  unfold readRow
  simp only [matmul]
  rw [Ideal.matmul_constant_zero_apply, ← Equiv.sum_comp (contrEquiv1 dot_S1024x1024_S1024x256_S1024x256_1_0_0_1_n_n 1024 rfl rfl).symm]
  refine congrArg Ideal.tanh (Finset.sum_congr rfl fun j _ => ?_)
  have hj := contrEquiv1_symm_val dot_S1024x1024_S1024x256_S1024x256_1_0_0_1_n_n 1024 rfl rfl j
  have el : dot_S1024x1024_S1024x256_S1024x256_1_0_0_1_n_n.lhsIdx (ix2 p q) ((contrEquiv1 dot_S1024x1024_S1024x256_S1024x256_1_0_0_1_n_n 1024 rfl rfl).symm j) = ix2 p j := funext fun a => Fin.ext (by
    match a with
    | ⟨0, _⟩ => exact lhs_out_0 _ _
    | ⟨1, _⟩ => exact (lhs_out_1 _ _).trans hj)
  have er : dot_S1024x1024_S1024x256_S1024x256_1_0_0_1_n_n.rhsIdx (ix2 p q) ((contrEquiv1 dot_S1024x1024_S1024x256_S1024x256_1_0_0_1_n_n 1024 rfl rfl).symm j) = ix2 j q := funext fun a => Fin.ext (by
    match a with
    | ⟨0, _⟩ => exact (rhs_out_0 _ _).trans hj
    | ⟨1, _⟩ => exact rhs_out_1 _ _)
  rw [el, er, weights_apply]
  simp only [scores_apply]

end Cert.KernelIdeal.Row

end
-- ==== Proof.KernelValue.lean ====
import proofs.«162672_g57990648430879_cont_sun_c4_352_2_alg».proof.Proof.Gen.KernelIdeal.Value
import proofs.«162672_g57990648430879_cont_sun_c4_352_2_alg».proof.Proof.KernelRow
import Idealize.ShloMosaic.Lib.Pipeline.Value

/-!
# The kernel's output array is the memory read-out

The grid has sixteen points. Point `t` is handed rows `1024·t … 1024·t + 1023` of the tokens and the whole bank,
and writes back rows `1024·t … 1024·t + 1023` of the output. Entry `(p, q)` of what it writes is token
`1024·t + p`'s read-out at feature `q` (the body, entry by entry), which is entry `(1024·t + p, q)` of
`Cert.Attn.memoryRead` of the two argument arrays. The sixteen row blocks cover the output array, so after the run
the array IS `memoryRead` of the arguments.
-/

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The block indices at point `t`: the tokens' and the output's row block is `t`, the bank's is the whole bank. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem index_onto : ∀ q0 : Fin 16, ∃ t : Fin cfg0.N, win0_2.index t = ![q0.val, 0] :=
  (by decide +kernel : ∀ q0 : Fin 16, ∃ t : Fin grid0.N, win0_2.index t = ![q0.val, 0])

/-- One entry of what a point stores, from its blocks' relation to the arrays: if row `p` of the token block is row
    `i 0` of the tokens, the bank block is the bank and `q` is `i 1`, the entry is `memoryRead` at `i`. -/
theorem block_entry (X : FVec Ideal S16384x256 .f32) (B x b : FVec Ideal S1024x256 .f32) (p : Fin 1024) (q : Fin 256)
    (i : S16384x256.Idx) (hx : ∀ k : Fin 256, x (ix2 p k) = X (ix2 (i 0) k)) (hb : b = B) (hq : q = i 1) :
    k0_pay1 (F := Ideal) x b (ix2 p q) = memoryRead X B i := by
  rw [Cert.KernelIdeal.Row.pay_apply]
  subst hb hq
  unfold memoryRead
  exact congrArg (fun f => readRow f b (i 1)) (funext hx)

/-- WHAT POINT `t` WRITES BACK is block `t` of the memory read-out of the argument arrays. -/
theorem flushed_eq (c : Dev nD) (t : Fin cfg0.N) :
    (dats m 0 c).flushed 2 t
      = ((cfg0.win 2).blk t).view.read (Elt Ideal) (memoryRead (V m c main_arg0) (V m c main_arg1)) := by
  rw [Cert.KernelIdeal.Value.flushed2]
  unfold out0_2
  rw [View.canon_unit_zero origin_zero]
  simp only [View.ld_unit_zero (S := S1024x256) origin_zero]
  obtain ⟨e0, e1, e2, e3, e4, e5⟩ := block_index t
  funext y
  show k0_pay1 (F := Ideal) (iblk m c 0 t) (iblk m c 1 t) y
    = memoryRead (V m c main_arg0) (V m c main_arg1) (((cfg0.win 2).blk t).view.emb y)
  refine (congrArg (k0_pay1 (F := Ideal) (iblk m c 0 t) (iblk m c 1 t)) (eq_ix2 (n0 := 1024) (n1 := 256) y)).trans
    (block_entry (V m c main_arg0) (V m c main_arg1) (iblk m c 0 t) (iblk m c 1 t) (y 0) (y 1)
      (((cfg0.win 2).blk t).view.emb y) ?_ ?_ ?_)
  · intro k
    show V m c main_arg0 (((cfg0.win 0).blk t).view.emb (ix2 (y 0) k))
      = V m c main_arg0 (ix2 ((((cfg0.win 2).blk t).view.emb y) 0) k)
    refine congrArg (V m c main_arg0) (funext fun a => Fin.ext ?_)
    match a with
    | ⟨0, _⟩ =>
      show win0_0.index t (0 : Fin 2) * 1024 + 1 * (y 0).val = win0_2.index t (0 : Fin 2) * 1024 + 1 * (y 0).val
      omega
    | ⟨1, _⟩ =>
      show win0_0.index t (1 : Fin 2) * 256 + 1 * k.val = k.val
      omega
  · funext y'
    show V m c main_arg1 (((cfg0.win 1).blk t).view.emb y') = V m c main_arg1 y'
    refine congrArg (V m c main_arg1) (funext fun a => Fin.ext ?_)
    match a with
    | ⟨0, _⟩ =>
      show win0_1.index t (0 : Fin 2) * 1024 + 1 * (y' 0).val = (y' 0).val
      omega
    | ⟨1, _⟩ =>
      show win0_1.index t (1 : Fin 2) * 256 + 1 * (y' 1).val = (y' 1).val
      omega
  · refine Fin.ext ?_
    show (y 1).val = win0_2.index t (1 : Fin 2) * 256 + 1 * (y 1).val
    omega

/-- An index of the output is in point `t`'s block iff each coordinate is in the block's range on its axis. -/
theorem mem_blk (t : Fin cfg0.N) (i : S16384x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- The sixteen row blocks cover the output: row `r` is in point `r / 1024`'s block. -/
theorem covered (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- THE OUTPUT ARRAY after the run is the memory read-out of the argument arrays. -/
theorem final (c : Dev nD) :
    (dats m 0 c).arrAt 2 cfg0.N
      = memoryRead (m ((c : Thread nD τ).loc main_arg0)) (m ((c : Thread nD τ).loc main_arg1)) :=
  (dats m 0 c).arrAt_eq_of_cover 2 (memoryRead (V m c main_arg0) (V m c main_arg1))
    (fun t _ => flushed_eq m c t) covered

/-- The kernel's run, read: the output at the memory read-out of the arguments, the arguments unchanged. -/
theorem run : θ_run defs (onTc (τ := τ) (main (F := Ideal))) ⟨m, fun _ => 0, ρ⟩ fun r => ∀ c : Dev nD,
      r.2.mem ((c : Thread nD τ).loc main_v0)
        = memoryRead (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceRow.lean ====
import proofs.«162672_g57990648430879_cont_sun_c4_352_2_alg».proof.Proof.Gen.ReferenceIdeal.Read
import proofs.«162672_g57990648430879_cont_sun_c4_352_2_alg».proof.Proof.MemorySpec
import Idealize.ShloMosaic.Lib.ValueIdx
import Idealize.ShloMosaic.PureOps.Ideal.Laws

/-!
# The reference, entry by entry, is the memory read-out

The reference computes the same read-out in the quotient spelling (`Cert.Attn.attnRowQ`): it subtracts each row's
maximum before both exponentials, divides by the row sums and shrinks by `sign p · max (|p| − λ) 0`. Its stages are
read at row `r` one by one: the scores of row `r`; the maximum it subtracts first, of which only that it is REAL is
used; the shrunk first softmax; the maximum it subtracts second, again only real; the weights. On real inputs the
quotient spelling is the reciprocal one (`Cert.Attn.attnRowQ_eq_attnRow`), so the reference's result is
`Cert.Attn.memoryRead`.
-/

noncomputable section

namespace Cert.ReferenceIdeal.Row

open Cert.ReferenceIdeal Cert.ReferenceIdeal.Read Idealize.ShloMosaic Idealize.ShloMosaic.ValueIdx Cert.Attn Cert.Lib

variable (X : FVec Ideal S16384x256 .f32) (B : FVec Ideal S1024x256 .f32)

/-- Row `r`'s scores. -/
abbrev scoresOf (r : Fin 16384) : Fin 1024 → EReal := scoreRow (fun k => X (ix2 r k)) B

/-- What the reference subtracts before its first exponential on row `r`. -/
abbrev firstShift (r : Fin 16384) : EReal := val_main_v4 (F := Ideal) X B (ix1 r)

/-- What the reference subtracts before its second exponential on row `r`. -/
abbrev secondShift (r : Fin 16384) : EReal := val_main_v22 (F := Ideal) X B (ix1 r)

/-- The first product at `(r, j)` is row `r`'s score against bank row `j`. -/
theorem v1_apply (r : Fin 16384) (j : Fin 1024) : val_main_v1 (F := Ideal) X B (ix2 r j) = scoresOf X B r j := by
  rw [val_main_v1_apply]
  unfold scoresOf scoreRow
  refine Finset.sum_congr rfl fun k _ => ?_
  rw [val_main_v0_apply]
  have e1 : lidx_main_v1 (ix2 r j) k = ix2 r k := funext fun a => Fin.ext (by match a with | ⟨0, _⟩ => rfl | ⟨1, _⟩ => rfl)
  have e2 : idx_main_v0 (ridx_main_v1 (ix2 r j) k) = ix2 j k := funext fun a => Fin.ext (by match a with | ⟨0, _⟩ => rfl | ⟨1, _⟩ => rfl)
  rw [e1, e2]

/-- A row maximum the reference takes (a fold from `-∞`, joined once more with `-∞`) of a real row is real. -/
theorem shift_isReal (Y : FVec Ideal S16384x1024 .f32) (y : Fin 1024 → EReal) (r : Fin 16384)
    (hY : ∀ j, Y (ix2 r j) = y j) (hy : ∀ j, IsReal (y j)) :
    IsReal (max (Ideal.ofBits .f32 0xFF800000#32)
      (Host.reduce (FloatOps.maximumf (F := Ideal) (φ := .f32)) Y (constant (F := Ideal) S_ .f32 0xFF800000#32) Facts₀.reducesTo_S16384x1024_S16384_d1 Facts₀.h_S_ (ix1 r))) := by
  rw [Host.reduce_eq_fold_single (FloatOps.maximumf (F := Ideal) (φ := .f32)) Y _ Facts₀.reducesTo_S16384x1024_S16384_d1 (by decide) Facts₀.h_S_ (ix1 r)]
  have e : (Y ∘ (by decide : S16384x1024.Reduces [1] S16384).lift (ix1 r)) = y := funext fun k => by
    show Y _ = _
    rw [← hY k]
    exact congrArg Y (funext fun a => Fin.ext (by match a with | ⟨0, _⟩ => rfl | ⟨1, _⟩ => rfl))
  rw [e]
  exact max_negInf_rowMax_isReal y hy

variable (hX : ∀ i, IsReal (X i)) (hB : ∀ i, IsReal (B i))
include hX hB

theorem scoresOf_isReal (r : Fin 16384) (j : Fin 1024) : IsReal (scoresOf X B r j) :=
  scoreRow_isReal _ _ (fun k => hX _) hB j

/-- The first shift is real. -/
theorem firstShift_isReal (r : Fin 16384) : IsReal (firstShift X B r) := by
  unfold firstShift
  rw [val_main_v4_apply, val_main_v3_apply, val_main_cst_0_apply]
  unfold val_main_v2 val_main_cst
  exact shift_isReal _ (scoresOf X B r) r (v1_apply X B r) (scoresOf_isReal X B hX hB r)

omit hX hB in
/-- The first exponentials at `(r, j)`. -/
theorem v8_apply (r : Fin 16384) (j : Fin 1024) :
    val_main_v8 (F := Ideal) X B (ix2 r j) = Ideal.exp (scoresOf X B r j - firstShift X B r) := by
  rw [val_main_v8_apply, val_main_v7_apply, val_main_v6_apply, val_main_v5_apply, v1_apply]
  have e : idx_main_v5 (idx_main_v6 (ix2 r j)) = ix1 r := funext fun a => Fin.ext (by match a with | ⟨0, _⟩ => rfl)
  rw [e]
  rfl

omit hX hB in
/-- The first softmax at `(r, j)`, quotient spelling. -/
theorem v12_apply (r : Fin 16384) (j : Fin 1024) :
    val_main_v12 (F := Ideal) X B (ix2 r j)
      = quotient (fun k => Ideal.exp (scoresOf X B r k - firstShift X B r)) j := by
  rw [val_main_v12_apply, val_main_v11_apply, val_main_v10_apply, val_main_v9_apply, val_main_cst_1_apply, v8_apply]
  have e : idx_main_v10 (idx_main_v11 (ix2 r j)) = ix1 r := funext fun a => Fin.ext (by match a with | ⟨0, _⟩ => rfl)
  rw [e]
  have e' : ∀ k : Fin 1024, idx_main_v9 (ix1 r) k = ix2 r k := fun k => funext fun a => Fin.ext (by match a with | ⟨0, _⟩ => rfl | ⟨1, _⟩ => rfl)
  simp only [e', v8_apply]
  rfl

omit hX hB in
/-- The shrunk first softmax at `(r, j)`. -/
theorem v19_apply (r : Fin 16384) (j : Fin 1024) :
    val_main_v19 (F := Ideal) X B (ix2 r j) = shrunkQ (scoresOf X B r) (firstShift X B r) j := by
  rw [val_main_v19_apply, val_main_v13_apply, val_main_v18_apply, val_main_v16_apply, val_main_v14_apply,
    val_main_v15_apply, val_main_v17_apply, val_main_cst_2_apply, val_main_cst_3_apply, v12_apply]
  rfl

/-- The second shift is real. -/
theorem secondShift_isReal (r : Fin 16384) : IsReal (secondShift X B r) := by
  unfold secondShift
  rw [val_main_v22_apply, val_main_v21_apply, val_main_cst_5_apply]
  unfold val_main_v20 val_main_cst_4
  exact shift_isReal _ (shrunkQ (scoresOf X B r) (firstShift X B r)) r (v19_apply X B r)
    (shrunkQ_isReal _ (scoresOf_isReal X B hX hB r) _ (firstShift_isReal X B hX hB r))

omit hX hB in
/-- The second exponentials at `(r, j)`. -/
theorem v26_apply (r : Fin 16384) (j : Fin 1024) :
    val_main_v26 (F := Ideal) X B (ix2 r j)
      = Ideal.exp (shrunkQ (scoresOf X B r) (firstShift X B r) j - secondShift X B r) := by
  rw [val_main_v26_apply, val_main_v25_apply, val_main_v24_apply, val_main_v23_apply, v19_apply]
  have e : idx_main_v23 (idx_main_v24 (ix2 r j)) = ix1 r := funext fun a => Fin.ext (by match a with | ⟨0, _⟩ => rfl)
  rw [e]
  rfl

omit hX hB in
/-- The weights at `(r, j)`, quotient spelling. -/
theorem v30_apply (r : Fin 16384) (j : Fin 1024) :
    val_main_v30 (F := Ideal) X B (ix2 r j)
      = attnRowQ (scoresOf X B r) (firstShift X B r) (secondShift X B r) j := by
  rw [val_main_v30_apply, val_main_v29_apply, val_main_v28_apply, val_main_v27_apply, val_main_cst_6_apply, v26_apply]
  have e : idx_main_v28 (idx_main_v29 (ix2 r j)) = ix1 r := funext fun a => Fin.ext (by match a with | ⟨0, _⟩ => rfl)
  rw [e]
  have e' : ∀ k : Fin 1024, idx_main_v27 (ix1 r) k = ix2 r k := fun k => funext fun a => Fin.ext (by match a with | ⟨0, _⟩ => rfl | ⟨1, _⟩ => rfl)
  simp only [e', v26_apply]
  rfl

/-- ON REAL INPUTS the reference's result is the memory read-out. -/
theorem result_eq : val_main_v32 (F := Ideal) X B = memoryRead X B := by
  funext i
  obtain ⟨r, q, rfl⟩ : ∃ (r : Fin 16384) (q : Fin 256), i = ix2 r q := ⟨i 0, i 1, eq_ix2 i⟩
  rw [val_main_v32_apply, val_main_v31_apply, Ideal.hostUnary_tanh_def]
  unfold memoryRead readRow
  refine congrArg Ideal.tanh (Finset.sum_congr rfl fun j _ => ?_)
  have e1 : lidx_main_v31 (ix2 r q) j = ix2 r j := funext fun a => Fin.ext (by match a with | ⟨0, _⟩ => rfl | ⟨1, _⟩ => rfl)
  have e2 : ridx_main_v31 (ix2 r q) j = ix2 j q := funext fun a => Fin.ext (by match a with | ⟨0, _⟩ => rfl | ⟨1, _⟩ => rfl)
  rw [e1, e2, v30_apply,
    attnRowQ_eq_attnRow _ (scoresOf_isReal X B hX hB r) _ _ (firstShift_isReal X B hX hB r) (secondShift_isReal X B hX hB r)]

end Cert.ReferenceIdeal.Row

end
-- ==== Proof.FiniteInputs.lean ====
import proofs.«162672_g57990648430879_cont_sun_c4_352_2_alg».proof.Pre_finite_inputs
import proofs.«162672_g57990648430879_cont_sun_c4_352_2_alg».proof.Proof.Gen.Pre_finite_inputs
import proofs.«162672_g57990648430879_cont_sun_c4_352_2_alg».proof.Proof.LibIdealReal
import Idealize.ShloMosaic.Lib.ReduceAll
import Idealize.ShloMosaic.Lib.ValueIdx

/-!
# The precondition: every entry of both inputs is a real number

The precondition is the conjunction of two `all`-reductions, one per input, of the entrywise test
`|x| < +∞`. An `all` that is true was true at every entry, and an extended real whose absolute value
`max x (−x)` is below `+∞` is neither infinity.
-/

open Idealize.ShloMosaic Cert.Lib

namespace Cert.Finite

open Cert.Pre_finite_inputs

/-- The `f32` pattern `0x7F800000` denotes `+∞`. -/
theorem posInf_eq_top : Ideal.ofBits .f32 0x7F800000#32 = ⊤ := by simp [Ideal.ofBits, Ideal.ieee]

/-- An entry that passes the test `|x| < +∞` is real. -/
theorem isReal_of_test {x : EReal}
    (h : Ideal.cmp .olt (max x (-x)) (Ideal.ofBits .f32 0x7F800000#32) = 1#1) : IsReal x := by
  rw [posInf_eq_top] at h
  refine isReal_of_abs_lt_top ?_
  by_contra hn
  simp [Ideal.cmp, hn] at h

instance : Subsingleton S_.Idx := ⟨fun a b => funext fun d => d.elim0⟩

/-- Under the precondition every entry of the tokens and of the bank is real. -/
theorem inputs_real (X : FVec Ideal S16384x256 .f32) (B : FVec Ideal S1024x256 .f32)
    (h : fn (F := Ideal) X B = fun _ => 1#1) : (∀ i, IsReal (X i)) ∧ (∀ i, IsReal (B i)) := by
  have h0 := congrFun h ValueIdx.ix0
  dsimp only [fn] at h0
  obtain ⟨h1, h2⟩ := IntOp.andi_eq_one.1 h0
  exact ⟨fun i => isReal_of_test (Host.reduce_andi_all _ _ _ _ _ h1 i),
    fun i => isReal_of_test (Host.reduce_andi_all _ _ _ _ _ h2 i)⟩

end Cert.Finite
-- ==== Proof.lean ====
/-
  Memory-bank attention: `out = tanh (softmax (softshrink (softmax (x · bankᵀ))) · bank)` over 16384 tokens of 256
  features and a bank of 1024 rows.

  The kernel walks the tokens in sixteen blocks of 1024 rows with the bank resident, and per block computes the scores,
  a softmax (row maximum subtracted, product with the reciprocal of the row sum), the shrinkage `max (p − λ) 0`, a
  second softmax without subtracting a maximum, the product with the bank and `tanh`. The reference does the same on
  the whole arrays with jax's softmax (row maximum subtracted both times, quotient by the row sum) and the signed
  shrinkage `sign p · max (|p| − λ) 0`.

  On the extended reals the two agree where every input entry is a real number, which the precondition gives: the
  scores are then real, a softmax of a real row does not depend on the real subtracted before the exponential, dividing
  by a positive real is multiplying by its reciprocal, and a softmax value is positive, so its sign is `1` and its
  absolute value itself (Proof/AttentionRow.lean). Both programs therefore end at `Cert.Attn.memoryRead` of the argument
  arrays (Proof/MemorySpec.lean): the kernel block by block (Proof/KernelRow.lean: one stored entry;
  Proof/KernelValue.lean: the sixteen blocks cover the array), the reference stage by stage (Proof/ReferenceRow.lean),
  the entries real by Proof/FiniteInputs.lean. The ideal pass rewrote nothing, so `preserves` is `True`.
-/
import proofs.«162672_g57990648430879_cont_sun_c4_352_2_alg».proof.Defs
import proofs.«162672_g57990648430879_cont_sun_c4_352_2_alg».proof.Proof.Gen.Kernel
import proofs.«162672_g57990648430879_cont_sun_c4_352_2_alg».proof.Proof.Gen.Kernel.Skeleton
import proofs.«162672_g57990648430879_cont_sun_c4_352_2_alg».proof.Proof.Gen.Kernel.Launch
import proofs.«162672_g57990648430879_cont_sun_c4_352_2_alg».proof.Proof.Gen.Kernel.Points
import proofs.«162672_g57990648430879_cont_sun_c4_352_2_alg».proof.Proof.Gen.Kernel.Frame
import proofs.«162672_g57990648430879_cont_sun_c4_352_2_alg».proof.Proof.Gen.KernelIdeal
import proofs.«162672_g57990648430879_cont_sun_c4_352_2_alg».proof.Proof.Gen.KernelIdeal.Skeleton
import proofs.«162672_g57990648430879_cont_sun_c4_352_2_alg».proof.Proof.Gen.KernelIdeal.Launch
import proofs.«162672_g57990648430879_cont_sun_c4_352_2_alg».proof.Proof.Gen.KernelIdeal.Points
import proofs.«162672_g57990648430879_cont_sun_c4_352_2_alg».proof.Proof.Gen.KernelIdeal.Frame
import proofs.«162672_g57990648430879_cont_sun_c4_352_2_alg».proof.Proof.Gen.ReferenceIdeal
import proofs.«162672_g57990648430879_cont_sun_c4_352_2_alg».proof.Proof.Gen.Pre_finite_inputs
import proofs.«162672_g57990648430879_cont_sun_c4_352_2_alg».proof.Proof.Gen.KernelIdeal.Value
import proofs.«162672_g57990648430879_cont_sun_c4_352_2_alg».proof.Proof.Gen.ReferenceIdeal.Run
import proofs.«162672_g57990648430879_cont_sun_c4_352_2_alg».proof.Proof.Gen.ReferenceIdeal.Read
import proofs.«162672_g57990648430879_cont_sun_c4_352_2_alg».proof.Proof.KernelValue
import proofs.«162672_g57990648430879_cont_sun_c4_352_2_alg».proof.Proof.ReferenceRow
import proofs.«162672_g57990648430879_cont_sun_c4_352_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the memory read-out of the argument arrays: the kernel on any input, the reference
    where the entries are real, which the precondition says of the kernel's arguments and the agreement carries over. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  obtain ⟨hX, hB⟩ := Cert.Finite.inputs_real _ _ (hpre c)
  exact Cert.ReferenceIdeal.Row.result_eq _ _ hX hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
